-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S32 .f32) (main_arg6 : FVec F S32x64 .f32) (main_arg7 : FVec F S64 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x32 .f32) (main_arg3 : FVec F S32 .f32) (main_arg4 : FVec F S32x32 .f32) (main_arg5 : FVec F S32 .f32) (main_arg6 : FVec F S32x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x32 : Shape := ⟨2, ![1, 32]⟩
abbrev S100000x32 : Shape := ⟨2, ![100000, 32]⟩
abbrev S2000x64 : Shape := ⟨2, ![2000, 64]⟩
abbrev S2000x32 : Shape := ⟨2, ![2000, 32]⟩
abbrev S1600000x32 : Shape := ⟨2, ![1600000, 32]⟩
abbrev S1x64 : Shape := ⟨2, ![1, 64]⟩

abbrev nBuf : Space → Nat
  | .hbm => 45
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S100000x64, .f32⟩
  | .hbm, ⟨26, _⟩ => ⟨S1x32, .f32⟩
  | .hbm, ⟨27, _⟩ => ⟨S1x32, .f32⟩
  | .hbm, ⟨28, _⟩ => ⟨S100000x32, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x32, .f32⟩
  | .hbm, ⟨38, _⟩ => ⟨S_, .f32⟩
  | .hbm, ⟨39, _⟩ => ⟨S100000x32, .f32⟩
  | .hbm, ⟨40, _⟩ => ⟨S1600000x1, .i32⟩
  | .hbm, ⟨41, _⟩ => ⟨S100000x32, .f32⟩
  | .hbm, ⟨42, _⟩ => ⟨S100000x32, .f32⟩
  | .hbm, ⟨43, _⟩ => ⟨S1x64, .f32⟩
  | .hbm, ⟨44, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S32x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S32_S1x32 : S32.ShapeCasts S1x32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x32_S32x32_0_0 : ∀ a, (![0, 0] : Fin 2 → Nat) a + S32x32.size a ≤ S32x32.size a
  h_S32x32 : 0 < S32x32.numel
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  shapeCasts_S64_S1x64 : S64.ShapeCasts S1x64
  shapeCasts_S2000x32_S2000x32 : S2000x32.ShapeCasts S2000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x32_S2000x32_1_0_0_1_n_n_wf : DotDims.WF S2000x64 S64x32 S2000x32 [1] [0] [0] [1] [] []
  dot_S2000x32_S32x32_S2000x32_1_0_0_1_n_n_wf : DotDims.WF S2000x32 S32x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S2000x32_S32x64_S2000x64_1_0_0_1_n_n_wf : DotDims.WF S2000x32 S32x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S100000x32.size a
  hwx0_5 : ∀ i : grid0.Coords, EltTy.bits .f32 = 32 ∨ (Rect.block (s := S100000x32) S2000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf

abbrev win0_0 : Pipeline.Window sig grid0 :=
  Pipeline.Window.ofSpec (Memref.whole main_v14) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S1x32 : Shape := ⟨2, ![1, 32]⟩
abbrev S1600000x32 : Shape := ⟨2, ![1600000, 32]⟩
abbrev S1x64 : Shape := ⟨2, ![1, 64]⟩

abbrev nBuf : Space → Nat
  | .hbm => 61
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S100000x64, .f32⟩
  | .hbm, ⟨26, _⟩ => ⟨S100000x32, .f32⟩
  | .hbm, ⟨27, _⟩ => ⟨S1x32, .f32⟩
  | .hbm, ⟨28, _⟩ => ⟨S100000x32, .f32⟩
  | .hbm, ⟨29, _⟩ => ⟨S100000x32, .f32⟩
  | .hbm, ⟨30, _⟩ => ⟨S_, .f32⟩
  | .hbm, ⟨31, _⟩ => ⟨S100000x32, .f32⟩
  | .hbm, ⟨32, _⟩ => ⟨S100000x32, .f32⟩
  | .hbm, ⟨33, _⟩ => ⟨S100000x32, .f32⟩
  | .hbm, ⟨34, _⟩ => ⟨S1x32, .f32⟩
  | .hbm, ⟨35, _⟩ => ⟨S100000x32, .f32⟩
  | .hbm, ⟨36, _⟩ => ⟨S100000x32, .f32⟩
  | .hbm, ⟨37, _⟩ => ⟨S_, .f32⟩
  | .hbm, ⟨38, _⟩ => ⟨S100000x32, .f32⟩
  | .hbm, ⟨39, _⟩ => ⟨S100000x32, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x32, .f32⟩
  | .hbm, ⟨49, _⟩ => ⟨S_, .f32⟩
  | .hbm, ⟨50, _⟩ => ⟨S100000x32, .f32⟩
  | .hbm, ⟨51, _⟩ => ⟨S1600000x1, .i32⟩
  | .hbm, ⟨52, _⟩ => ⟨S100000x32, .f32⟩
  | .hbm, ⟨53, _⟩ => ⟨S100000x32, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_cst : Ref sig .tc := ⟨.hbm, 37, rfl⟩
abbrev main_call1_v0 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call2_cst : Ref sig .tc := ⟨.hbm, 58, rfl⟩
abbrev main_call2_v0 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf

class Facts : Prop extends Facts₀ where

variable [Facts]
-- ==== Proof.Spec.lean ====
/-
  The arithmetic both programs share, written once over plain index functions.
  A graph-isomorphism network layer first adds to every node's row the sum of its in-neighbours' rows (a gather of the
  source rows followed by a scatter-add into the target rows: an operation on whole arrays, which both programs run on
  the host with the same dimension numbers), and then sends each row, by itself, through a small perceptron. Only the
  perceptrons are read at an index here: entry `(r, q)` of a rectified dense layer is
  `max (Σ_k row_r k · col_q k + b_q) 0`, a function of row `r` of the input alone. The first perceptron stacks two such
  layers (64 → 32 → 32), the second is one (32 → 64). The extended reals form a commutative monoid under `+`, so the
  sum over the contracted axis needs no order and no finiteness.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- One output of a rectified dense layer: the row's product with the weight column, the bias added, the maximum
    with zero (the zero both programs splat, as its f32 word). -/
def unit {K : Nat} (row col : Fin K → EReal) (b : EReal) : EReal :=
  max ((∑ k : Fin K, row k * col k) + b) (Ideal.ofBits .f32 0x00000000#32)

/-- Entry `(r, q)` of the first perceptron (64 → 32 → 32, both layers rectified) applied to the rows of `h`. -/
def mlp1At {N : Nat} (h : (⟨2, ![N, 64]⟩ : Shape).Idx → EReal) (w1 : (⟨2, ![64, 32]⟩ : Shape).Idx → EReal) (b1 : Fin 32 → EReal)
    (w2 : (⟨2, ![32, 32]⟩ : Shape).Idx → EReal) (b2 : Fin 32 → EReal) (r : Fin N) (q : Fin 32) : EReal :=
  unit (fun k : Fin 32 => unit (fun l : Fin 64 => h (ix2 r l)) (fun l : Fin 64 => w1 (ix2 l k)) (b1 k))
    (fun k : Fin 32 => w2 (ix2 k q)) (b2 q)

/-- Entry `(r, q)` of the second perceptron (32 → 64, rectified) applied to the rows of `g`. -/
def mlp2At {N : Nat} (g : (⟨2, ![N, 32]⟩ : Shape).Idx → EReal) (w3 : (⟨2, ![32, 64]⟩ : Shape).Idx → EReal) (b3 : Fin 64 → EReal)
    (r : Fin N) (q : Fin 64) : EReal :=
  unit (fun k : Fin 32 => g (ix2 r k)) (fun k : Fin 32 => w3 (ix2 k q)) (b3 q)

/-- The first perceptron reads only row `r` of its input: two inputs that agree on that row give the same entry. -/
theorem mlp1At_congr {N M : Nat} (h : (⟨2, ![N, 64]⟩ : Shape).Idx → EReal) (h' : (⟨2, ![M, 64]⟩ : Shape).Idx → EReal)
    (w1 : (⟨2, ![64, 32]⟩ : Shape).Idx → EReal) (b1 : Fin 32 → EReal) (w2 : (⟨2, ![32, 32]⟩ : Shape).Idx → EReal) (b2 : Fin 32 → EReal)
    (r : Fin N) (r' : Fin M) (q : Fin 32) (hrow : ∀ l : Fin 64, h (ix2 r l) = h' (ix2 r' l)) :
    mlp1At h w1 b1 w2 b2 r q = mlp1At h' w1 b1 w2 b2 r' q := by
  unfold mlp1At
  simp only [hrow]

/-- So does the second. -/
theorem mlp2At_congr {N M : Nat} (g : (⟨2, ![N, 32]⟩ : Shape).Idx → EReal) (g' : (⟨2, ![M, 32]⟩ : Shape).Idx → EReal)
    (w3 : (⟨2, ![32, 64]⟩ : Shape).Idx → EReal) (b3 : Fin 64 → EReal)
    (r : Fin N) (r' : Fin M) (q : Fin 64) (hrow : ∀ k : Fin 32, g (ix2 r k) = g' (ix2 r' k)) :
    mlp2At g w3 b3 r q = mlp2At g' w3 b3 r' q := by
  unfold mlp2At
  simp only [hrow]

end Cert.Spec

end
-- ==== Proof.KernelPay.lean ====
/-
  What each kernel body stores, read at one entry of its block, at the ideal instance.
  Both bodies load whole blocks, narrow them to bf16 (the identity on extended reals), multiply on the matrix unit
  into a zero accumulator (a plain sum of products over the contracted axis), add a bias row broadcast down the
  block, and rectify. So entry `(p, q)` of the first body's store is the first perceptron's entry at row `p` of the
  node block, and entry `(p, q)` of the second body's store the second perceptron's: functions of row `p` alone,
  which is what lets a block of the result be read as a block of one whole-array function.
-/
import proofs.«174522_j20538533610166_1_alg».proof.Proof.Gen.KernelIdeal.Skeleton
import proofs.«174522_j20538533610166_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## The three matrix products, each at an entry: a sum over the one contracted axis -/

/-! ### [2000, 64] × [64, 32] -/

theorem lhs_a_0 (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs_a_1 (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
theorem rhs_a_0 (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
theorem rhs_a_1 (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- Entry `(p, q)` of the block's product with the first weight matrix: row `p` against column `q`. -/
theorem mm_a_apply (l : FVec Ideal S2000x64 .bf16) (r : FVec Ideal S64x32 .bf16) (p : Fin 2000) (q : Fin 32) :
    matmul dot_S2000x64_S64x32_S2000x32_1_0_0_1_n_n none l r (constant S2000x32 .f32 0x00000000#32) (ix2 p q)
      = ∑ k : Fin 64, l (ix2 p k) * r (ix2 k q) := by
  show FloatOps.matmul dot_S2000x64_S64x32_S2000x32_1_0_0_1_n_n none l r (constant S2000x32 .f32 0x00000000#32) (ix2 p q) = _
  rw [Ideal.matmul_constant_zero_apply, ← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx (ix2 p q) ((ValueIdx.contrEquiv1 dot_S2000x64_S64x32_S2000x32_1_0_0_1_n_n 64 rfl rfl).symm k) = ix2 p k := funext fun a => Fin.ext (by
    match a with
    | ⟨0, _⟩ => exact lhs_a_0 _ _
    | ⟨1, _⟩ => exact (lhs_a_1 _ _).trans hk)
  have er : dot_S2000x64_S64x32_S2000x32_1_0_0_1_n_n.rhsIdx (ix2 p q) ((ValueIdx.contrEquiv1 dot_S2000x64_S64x32_S2000x32_1_0_0_1_n_n 64 rfl rfl).symm k) = ix2 k q := funext fun a => Fin.ext (by
    match a with
    | ⟨0, _⟩ => exact (rhs_a_0 _ _).trans hk
    | ⟨1, _⟩ => exact rhs_a_1 _ _)
  rw [el, er]

/-! ### [2000, 32] × [32, 32] -/

theorem lhs_b_0 (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl
theorem lhs_b_1 (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q
theorem rhs_b_0 (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q
theorem rhs_b_1 (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

/-- Entry `(p, q)` of the hidden block's product with the second weight matrix. -/
theorem mm_b_apply (l : FVec Ideal S2000x32 .bf16) (r : FVec Ideal S32x32 .bf16) (p : Fin 2000) (q : Fin 32) :
    matmul dot_S2000x32_S32x32_S2000x32_1_0_0_1_n_n none l r (constant S2000x32 .f32 0x00000000#32) (ix2 p q)
      = ∑ k : Fin 32, l (ix2 p k) * r (ix2 k q) := by
  show FloatOps.matmul dot_S2000x32_S32x32_S2000x32_1_0_0_1_n_n none l r (constant S2000x32 .f32 0x00000000#32) (ix2 p q) = _
  rw [Ideal.matmul_constant_zero_apply, ← Equiv.sum_comp (ValueIdx.contrEquiv1 dot_S2000x32_S32x32_S2000x32_1_0_0_1_n_n 32 rfl rfl).symm]
  refine Finset.sum_congr rfl fun k _ => ?_
  have hk := ValueIdx.contrEquiv1_symm_val dot_S2000x32_S32x32_S2000x32_1_0_0_1_n_n 32 rfl rfl k
  have el : dot_S2000x32_S32x32_S2000x32_1_0_0_1_n_n.lhsIdx (ix2 p q) ((ValueIdx.contrEquiv1 dot_S2000x32_S32x32_S2000x32_1_0_0_1_n_n 32 rfl rfl).symm k) = ix2 p k := funext fun a => Fin.ext (by
    match a with
    | ⟨0, _⟩ => exact lhs_b_0 _ _
    | ⟨1, _⟩ => exact (lhs_b_1 _ _).trans hk)
  have er : dot_S2000x32_S32x32_S2000x32_1_0_0_1_n_n.rhsIdx (ix2 p q) ((ValueIdx.contrEquiv1 dot_S2000x32_S32x32_S2000x32_1_0_0_1_n_n 32 rfl rfl).symm k) = ix2 k q := funext fun a => Fin.ext (by
    match a with
    | ⟨0, _⟩ => exact (rhs_b_0 _ _).trans hk
    | ⟨1, _⟩ => exact rhs_b_1 _ _)
  rw [el, er]

/-! ### [2000, 32] × [32, 64] -/

theorem lhs_c_0 (i : S2000x64.Idx) (q : dot_S2000x32_S32x64_S2000x64_1_0_0_1_n_n.contr.Idx) :
    (dot_S2000x32_S32x64_S2000x64_1_0_0_1_n_n.lhsIdx i q 0).val = (i 0).val := by
  unfold DotDims.lhsIdx
  rw [dif_neg (show ¬(0 : Fin S2000x32.rank) ∈ dot_S2000x32_S32x64_S2000x64_1_0_0_1_n_n.lhsBatch by decide), dif_pos (show (0 : Fin S2000x32.rank) ∈ dot_S2000x32_S32x64_S2000x64_1_0_0_1_n_n.lhsNonContracting by decide)]
  rfl
theorem lhs_c_1 (i : S2000x64.Idx) (q : dot_S2000x32_S32x64_S2000x64_1_0_0_1_n_n.contr.Idx) :
    (dot_S2000x32_S32x64_S2000x64_1_0_0_1_n_n.lhsIdx i q 1).val = (q ⟨0, by decide⟩).val :=
  dot_S2000x32_S32x64_S2000x64_1_0_0_1_n_n.lhsIdx_val_of_single rfl i q
theorem rhs_c_0 (i : S2000x64.Idx) (q : dot_S2000x32_S32x64_S2000x64_1_0_0_1_n_n.contr.Idx) :
    (dot_S2000x32_S32x64_S2000x64_1_0_0_1_n_n.rhsIdx i q 0).val = (q ⟨0, by decide⟩).val :=
  dot_S2000x32_S32x64_S2000x64_1_0_0_1_n_n.rhsIdx_val_of_single rfl i q
theorem rhs_c_1 (i : S2000x64.Idx) (q : dot_S2000x32_S32x64_S2000x64_1_0_0_1_n_n.contr.Idx) :
    (dot_S2000x32_S32x64_S2000x64_1_0_0_1_n_n.rhsIdx i q 1).val = (i 1).val := by
  unfold DotDims.rhsIdx
  rw [dif_neg (show ¬(1 : Fin S32x64.rank) ∈ dot_S2000x32_S32x64_S2000x64_1_0_0_1_n_n.rhsBatch by decide), dif_pos (show (1 : Fin S32x64.rank) ∈ dot_S2000x32_S32x64_S2000x64_1_0_0_1_n_n.rhsNonContracting by decide)]
  rfl

/-- Entry `(p, q)` of the aggregated hidden block's product with the third weight matrix. -/
theorem mm_c_apply (l : FVec Ideal S2000x32 .bf16) (r : FVec Ideal S32x64 .bf16) (p : Fin 2000) (q : Fin 64) :
    matmul dot_S2000x32_S32x64_S2000x64_1_0_0_1_n_n none l r (constant S2000x64 .f32 0x00000000#32) (ix2 p q)
      = ∑ k : Fin 32, l (ix2 p k) * r (ix2 k q) := by
  show FloatOps.matmul dot_S2000x32_S32x64_S2000x64_1_0_0_1_n_n none l r (constant S2000x64 .f32 0x00000000#32) (ix2 p q) = _
  rw [Ideal.matmul_constant_zero_apply, ← Equiv.sum_comp (ValueIdx.contrEquiv1 dot_S2000x32_S32x64_S2000x64_1_0_0_1_n_n 32 rfl rfl).symm]
  refine Finset.sum_congr rfl fun k _ => ?_
  have hk := ValueIdx.contrEquiv1_symm_val dot_S2000x32_S32x64_S2000x64_1_0_0_1_n_n 32 rfl rfl k
  have el : dot_S2000x32_S32x64_S2000x64_1_0_0_1_n_n.lhsIdx (ix2 p q) ((ValueIdx.contrEquiv1 dot_S2000x32_S32x64_S2000x64_1_0_0_1_n_n 32 rfl rfl).symm k) = ix2 p k := funext fun a => Fin.ext (by
    match a with
    | ⟨0, _⟩ => exact lhs_c_0 _ _
    | ⟨1, _⟩ => exact (lhs_c_1 _ _).trans hk)
  have er : dot_S2000x32_S32x64_S2000x64_1_0_0_1_n_n.rhsIdx (ix2 p q) ((ValueIdx.contrEquiv1 dot_S2000x32_S32x64_S2000x64_1_0_0_1_n_n 32 rfl rfl).symm k) = ix2 k q := funext fun a => Fin.ext (by
    match a with
    | ⟨0, _⟩ => exact (rhs_c_0 _ _).trans hk
    | ⟨1, _⟩ => exact rhs_c_1 _ _)
  rw [el, er]

/-! ## The two stores -/

/-- The first body's store at `(p, q)`: the first perceptron's entry at row `p` of the node block. -/
theorem pay0_apply (x0 : Vec Ideal S2000x64 .f32) (x1 : Vec Ideal S64x32 .f32) (x2 : Vec Ideal S1x32 .f32) (x3 : Vec Ideal S32x32 .f32) (x4 : Vec Ideal S1x32 .f32)
    (p : Fin 2000) (q : Fin 32) :
    k0_pay1 (F := Ideal) x0 x1 x2 x3 x4 (ix2 p q)
      = mlp1At x0 x1 (fun k => x2 (ix2 (0 : Fin 1) k)) x3 (fun k => x4 (ix2 (0 : Fin 1) k)) p q := by
  unfold k0_pay1 mlp1At Cert.Spec.unit
  simp only [ValueIdx.maximumf_apply, ValueIdx.addf_apply, ValueIdx.broadcast_apply, mm_b_apply, mm_a_apply, ValueIdx.truncf_apply,
    shapeCast_self, broadcastTo_1b_ab_apply, Scalar.ofBits, Ideal.ofBits_def]

/-- The second body's store at `(p, q)`: the second perceptron's entry at row `p` of the aggregated block. -/
theorem pay1_apply (x0 : Vec Ideal S2000x32 .f32) (x1 : Vec Ideal S32x64 .f32) (x2 : Vec Ideal S1x64 .f32)
    (p : Fin 2000) (q : Fin 64) :
    k1_pay1 (F := Ideal) x0 x1 x2 (ix2 p q) = mlp2At x0 x1 (fun k => x2 (ix2 (0 : Fin 1) k)) p q := by
  unfold k1_pay1 mlp2At Cert.Spec.unit
  simp only [ValueIdx.maximumf_apply, ValueIdx.addf_apply, ValueIdx.broadcast_apply, mm_c_apply, ValueIdx.truncf_apply,
    shapeCast_self, broadcastTo_1b_ab_apply, Scalar.ofBits, Ideal.ofBits_def]

end Cert.KernelIdeal.Pay

end
-- ==== Proof.Region0.lean ====
/-
  The first kernel region, as one function of the arrays it is entered with.
  The region runs over 50 grid points; point `t` stages rows `2000 t … 2000 t + 1999` of the aggregated node array
  (window 0), the two weight matrices and the two bias rows whole (windows 1 to 4, the same block at every point),
  and writes rows `2000 t … 2000 t + 1999` of the hidden array back (window 5). Since an entry of the body's store
  depends only on its own row of the node block, block `t` of the result is block `t` of ONE whole-array function:
  the first perceptron applied row by row. The 50 blocks tile the 100000 rows (row `r` lies in block `r / 2000`), so
  the hidden array ends as that function.
-/
import proofs.«174522_j20538533610166_1_alg».proof.Proof.Gen.KernelIdeal.Frame
import proofs.«174522_j20538533610166_1_alg».proof.Proof.KernelPay
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the hidden array ends holding: the first perceptron of the entry contents, row by row. -/
def hidden (c : Dev nD) : S100000x32.Idx → EReal := fun i =>
  mlp1At (N := 100000) (V c main_v14 : S100000x64.Idx → EReal) (V c main_arg2 : S64x32.Idx → EReal)
    (fun k => (V c main_v15 : S1x32.Idx → EReal) (ix2 (0 : Fin 1) k)) (V c main_arg4 : S32x32.Idx → EReal)
    (fun k => (V c main_v16 : S1x32.Idx → EReal) (ix2 (0 : Fin 1) k)) ⟨(i 0).val, idx2_lt0 i⟩ ⟨(i 1).val, idx2_lt1 i⟩

/-- The printed index maps over the grid: the node window and the result window move down one block a point, the
    four parameter windows stay at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row block is some point's. -/
theorem idx_onto0 : ∀ q0 : Fin 50, ∃ t : Fin cfg0.N, t.val = q0.val :=
  (by decide +kernel : ∀ q0 : Fin 50, ∃ t : Fin grid0.N, t.val = q0.val)

/-! ## The staged blocks, read off the entry contents -/

/-- The node block at point `t` is rows `2000 t …` of the aggregated node array. -/
theorem node_block (c : Dev nD) (t : Fin cfg0.N) (y : S2000x64.Idx) (k : S100000x64.Idx)
    (hk0 : (k 0).val = t.val * 2000 + (y 0).val) (hk1 : (k 1).val = (y 1).val) :
    (iblk0 V c 0 t : Vec Ideal S2000x64 .f32) y = (V c main_v14 : S100000x64.Idx → EReal) k := by
  obtain ⟨e0, e1, -⟩ := idx_facts0 t
  show V c main_v14 (((cfg0.win 0).blk t).view.emb y) = V c main_v14 k
  refine congrArg (V c main_v14) (funext fun a => Fin.ext ?_)
  match a with
  | ⟨0, _⟩ => show win0_0.index t (0 : Fin 2) * 2000 + 1 * (y 0).val = (k 0).val; omega
  | ⟨1, _⟩ => show win0_0.index t (1 : Fin 2) * 64 + 1 * (y 1).val = (k 1).val; omega

/-- The four parameter windows stage their arrays whole. -/
theorem w1_block (c : Dev nD) (t : Fin cfg0.N) : (iblk0 V c 1 t : Vec Ideal S64x32 .f32) = (V c main_arg2 : S64x32.Idx → EReal) := by
  obtain ⟨-, -, e0, e1, -⟩ := idx_facts0 t
  funext y
  show V c main_arg2 (((cfg0.win 1).blk t).view.emb y) = V c main_arg2 y
  refine congrArg (V c main_arg2) (funext fun a => Fin.ext ?_)
  match a with
  | ⟨0, _⟩ => show win0_1.index t (0 : Fin 2) * 64 + 1 * (y 0).val = (y 0).val; omega
  | ⟨1, _⟩ => show win0_1.index t (1 : Fin 2) * 32 + 1 * (y 1).val = (y 1).val; omega
theorem b1_block (c : Dev nD) (t : Fin cfg0.N) : (iblk0 V c 2 t : Vec Ideal S1x32 .f32) = (V c main_v15 : S1x32.Idx → EReal) := by
  obtain ⟨-, -, -, -, e0, e1, -⟩ := idx_facts0 t
  funext y
  show V c main_v15 (((cfg0.win 2).blk t).view.emb y) = V c main_v15 y
  refine congrArg (V c main_v15) (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega
theorem w2_block (c : Dev nD) (t : Fin cfg0.N) : (iblk0 V c 3 t : Vec Ideal S32x32 .f32) = (V c main_arg4 : S32x32.Idx → EReal) := by
  obtain ⟨-, -, -, -, -, -, e0, e1, -⟩ := idx_facts0 t
  funext y
  show V c main_arg4 (((cfg0.win 3).blk t).view.emb y) = V c main_arg4 y
  refine congrArg (V c main_arg4) (funext fun a => Fin.ext ?_)
  match a with
  | ⟨0, _⟩ => show win0_3.index t (0 : Fin 2) * 32 + 1 * (y 0).val = (y 0).val; omega
  | ⟨1, _⟩ => show win0_3.index t (1 : Fin 2) * 32 + 1 * (y 1).val = (y 1).val; omega
theorem b2_block (c : Dev nD) (t : Fin cfg0.N) : (iblk0 V c 4 t : Vec Ideal S1x32 .f32) = (V c main_v16 : S1x32.Idx → EReal) := by
  obtain ⟨-, -, -, -, -, -, -, -, e0, e1, -⟩ := idx_facts0 t
  funext y
  show V c main_v16 (((cfg0.win 4).blk t).view.emb y) = V c main_v16 y
  refine congrArg (V c main_v16) (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

/-! ## One entry of the store, against the whole-array function -/

/-- For blocks that are the `n`-th row block of `h0` and the parameters whole, entry `j` of the body's store is the
    perceptron's entry at the array index `i` that `j` names in block `n`. -/
theorem entry0_of (h0 : S100000x64.Idx → EReal) (w1 : S64x32.Idx → EReal) (b1 : S1x32.Idx → EReal) (w2 : S32x32.Idx → EReal) (b2 : S1x32.Idx → EReal)
    (x0 : Vec Ideal S2000x64 .f32) (x1 : Vec Ideal S64x32 .f32) (x2 : Vec Ideal S1x32 .f32) (x3 : Vec Ideal S32x32 .f32) (x4 : Vec Ideal S1x32 .f32)
    (n : Nat)
    (e0 : ∀ (y : S2000x64.Idx) (k : S100000x64.Idx), (k 0).val = n * 2000 + (y 0).val → (k 1).val = (y 1).val → x0 y = h0 k)
    (e1 : x1 = w1) (e2 : x2 = b1) (e3 : x3 = w2) (e4 : x4 = b2)
    (j : S2000x32.Idx) (i : S100000x32.Idx) (hi0 : (i 0).val = n * 2000 + (j 0).val) (hi1 : (i 1).val = (j 1).val) :
    k0_pay1 (F := Ideal) x0 x1 x2 x3 x4 j
      = mlp1At (N := 100000) h0 w1 (fun k => b1 (ix2 (0 : Fin 1) k)) w2 (fun k => b2 (ix2 (0 : Fin 1) k))
          ⟨(i 0).val, idx2_lt0 i⟩ ⟨(i 1).val, idx2_lt1 i⟩ := by
  subst e1 e2 e3 e4
  obtain ⟨p, q, rfl⟩ : ∃ (p : Fin 2000) (q : Fin 32), j = ix2 p q := ⟨j 0, j 1, eq_ix2 j⟩
  rw [Pay.pay0_apply]
  have hq : (⟨(i 1).val, idx2_lt1 i⟩ : Fin 32) = q := Fin.ext hi1
  rw [hq]
  exact mlp1At_congr x0 h0 x1 _ x3 _ p ⟨(i 0).val, idx2_lt0 i⟩ q
    (fun l => e0 (ix2 p l) (ix2 ⟨(i 0).val, idx2_lt0 i⟩ l) hi0 rfl)

/-! ## From blocks to the array -/

/-- What point `t` writes back is block `t` of `hidden`. -/
theorem flushed0_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero hz]
  simp only [View.ld_unit_zero (S := S2000x64) hz, View.ld_unit_zero (S := S64x32) hz, View.ld_unit_zero (S := S1x32) hz,
    View.ld_unit_zero (S := S32x32) hz]
  obtain ⟨-, -, -, -, -, -, -, -, -, -, e0, e1⟩ := idx_facts0 t
  funext j
  show k0_pay1 (F := Ideal) (iblk0 V c 0 t) (iblk0 V c 1 t) (iblk0 V c 2 t) (iblk0 V c 3 t) (iblk0 V c 4 t) j
    = hidden V c (((cfg0.win 5).blk t).view.emb j)
  unfold hidden
  exact entry0_of (V c main_v14) (V c main_arg2) (V c main_v15) (V c main_arg4) (V c main_v16)
    (iblk0 V c 0 t) (iblk0 V c 1 t) (iblk0 V c 2 t) (iblk0 V c 3 t) (iblk0 V c 4 t) t.val
    (fun y k hk0 hk1 => node_block V c t y k hk0 hk1) (w1_block V c t) (b1_block V c t) (w2_block V c t) (b2_block V c t)
    j (((cfg0.win 5).blk t).view.emb j)
    (by show win0_5.index t (0 : Fin 2) * 2000 + 1 * (j 0).val = t.val * 2000 + (j 0).val; omega)
    (by show win0_5.index t (1 : Fin 2) * 32 + 1 * (j 1).val = (j 1).val; omega)

/-- An index of the hidden array is in point `t`'s block iff each coordinate is in the block's range on its axis. -/
theorem mem_blk0 (t : Fin cfg0.N) (i : S100000x32.Idx) :
    i ∈ ((cfg0.win 5).blk t).view.set ↔ ∀ a : Fin 2, win0_5.index t a * S2000x32.size a ≤ (i a).val ∧ (i a).val < win0_5.index t a * S2000x32.size a + S2000x32.size a := by
  show i ∈ ((View.whole main_v17).slice (win0_5.rect t)).set ↔ _
  rw [View.set_slice_whole, Rect.mem_set_unit]
  exact Iff.rfl

/-- Every index is in the block of the point its row's quotient by 2000 names. -/
theorem cover0 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, ht⟩ := idx_onto0 ⟨(i 0).val / 2000, by omega⟩
  have ht' : t.val = (i 0).val / 2000 := ht
  obtain ⟨-, -, -, -, -, -, -, -, -, -, e0, e1⟩ := idx_facts0 t
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 32 ≤ (i 1).val ∧ (i 1).val < win0_5.index t (1 : Fin 2) * 32 + 32; omega

/-- The hidden array after the region: the first perceptron of the entry contents, row by row. -/
theorem final0 (c : Dev nD) : (dat0 V c).arrAt 5 cfg0.N = hidden V c :=
  (dat0 V c).arrAt_eq_of_cover 5 (hidden V c) (fun t _ => flushed0_eq V c t) (cover0)

end Cert.KernelIdeal.Val

end
-- ==== Proof.Region1.lean ====
/-
  The second kernel region, as one function of the arrays it is entered with.
  Again 50 grid points; point `t` stages rows `2000 t … 2000 t + 1999` of the aggregated hidden array (window 0), the
  third weight matrix and its bias row whole (windows 1 and 2), and writes rows `2000 t … 2000 t + 1999` of the result
  back (window 3). An entry of the body's store depends only on its own row of the hidden block, so block `t` of the
  result is block `t` of the second perceptron applied row by row, and the 50 blocks tile the 100000 rows.
-/
import proofs.«174522_j20538533610166_1_alg».proof.Proof.Gen.KernelIdeal.Frame
import proofs.«174522_j20538533610166_1_alg».proof.Proof.KernelPay
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz' : (![0, 0] : Fin 2 → Nat) = fun _ => 0 := funext fun a => by fin_cases a <;> rfl

/-- What the result array ends holding: the second perceptron of the entry contents, row by row. -/
def result (c : Dev nD) : S100000x64.Idx → EReal := fun i =>
  mlp2At (N := 100000) (V c main_v28 : S100000x32.Idx → EReal) (V c main_arg6 : S32x64.Idx → EReal)
    (fun k => (V c main_v29 : S1x64.Idx → EReal) (ix2 (0 : Fin 1) k)) ⟨(i 0).val, idx2_lt0 i⟩ ⟨(i 1).val, idx2_lt1 i⟩

/-- The printed index maps over the grid: the hidden window and the result window move down one block a point, the
    two parameter windows stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem idx_onto1 : ∀ q0 : Fin 50, ∃ t : Fin cfg1.N, t.val = q0.val :=
  (by decide +kernel : ∀ q0 : Fin 50, ∃ t : Fin grid1.N, t.val = q0.val)

/-! ## The staged blocks, read off the entry contents -/

/-- The hidden block at point `t` is rows `2000 t …` of the aggregated hidden array. -/
theorem hidden_block (c : Dev nD) (t : Fin cfg1.N) (y : S2000x32.Idx) (k : S100000x32.Idx)
    (hk0 : (k 0).val = t.val * 2000 + (y 0).val) (hk1 : (k 1).val = (y 1).val) :
    (iblk1 V c 0 t : Vec Ideal S2000x32 .f32) y = (V c main_v28 : S100000x32.Idx → EReal) k := by
  obtain ⟨e0, e1, -⟩ := idx_facts1 t
  show V c main_v28 (((cfg1.win 0).blk t).view.emb y) = V c main_v28 k
  refine congrArg (V c main_v28) (funext fun a => Fin.ext ?_)
  match a with
  | ⟨0, _⟩ => show win1_0.index t (0 : Fin 2) * 2000 + 1 * (y 0).val = (k 0).val; omega
  | ⟨1, _⟩ => show win1_0.index t (1 : Fin 2) * 32 + 1 * (y 1).val = (k 1).val; omega

/-- The two parameter windows stage their arrays whole. -/
theorem w3_block (c : Dev nD) (t : Fin cfg1.N) : (iblk1 V c 1 t : Vec Ideal S32x64 .f32) = (V c main_arg6 : S32x64.Idx → EReal) := by
  obtain ⟨-, -, e0, e1, -⟩ := idx_facts1 t
  funext y
  show V c main_arg6 (((cfg1.win 1).blk t).view.emb y) = V c main_arg6 y
  refine congrArg (V c main_arg6) (funext fun a => Fin.ext ?_)
  match a with
  | ⟨0, _⟩ => show win1_1.index t (0 : Fin 2) * 32 + 1 * (y 0).val = (y 0).val; omega
  | ⟨1, _⟩ => show win1_1.index t (1 : Fin 2) * 64 + 1 * (y 1).val = (y 1).val; omega
theorem b3_block (c : Dev nD) (t : Fin cfg1.N) : (iblk1 V c 2 t : Vec Ideal S1x64 .f32) = (V c main_v29 : S1x64.Idx → EReal) := by
  obtain ⟨-, -, -, -, e0, e1, -⟩ := idx_facts1 t
  funext y
  show V c main_v29 (((cfg1.win 2).blk t).view.emb y) = V c main_v29 y
  refine congrArg (V c main_v29) (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-! ## One entry of the store, against the whole-array function -/

/-- For a block that is the `n`-th row block of `g0` and the parameters whole, entry `j` of the body's store is the
    perceptron's entry at the array index `i` that `j` names in block `n`. -/
theorem entry1_of (g0 : S100000x32.Idx → EReal) (w3 : S32x64.Idx → EReal) (b3 : S1x64.Idx → EReal)
    (x0 : Vec Ideal S2000x32 .f32) (x1 : Vec Ideal S32x64 .f32) (x2 : Vec Ideal S1x64 .f32)
    (n : Nat)
    (e0 : ∀ (y : S2000x32.Idx) (k : S100000x32.Idx), (k 0).val = n * 2000 + (y 0).val → (k 1).val = (y 1).val → x0 y = g0 k)
    (e1 : x1 = w3) (e2 : x2 = b3)
    (j : S2000x64.Idx) (i : S100000x64.Idx) (hi0 : (i 0).val = n * 2000 + (j 0).val) (hi1 : (i 1).val = (j 1).val) :
    k1_pay1 (F := Ideal) x0 x1 x2 j
      = mlp2At (N := 100000) g0 w3 (fun k => b3 (ix2 (0 : Fin 1) k)) ⟨(i 0).val, idx2_lt0 i⟩ ⟨(i 1).val, idx2_lt1 i⟩ := by
  subst e1 e2
  obtain ⟨p, q, rfl⟩ : ∃ (p : Fin 2000) (q : Fin 64), j = ix2 p q := ⟨j 0, j 1, eq_ix2 j⟩
  rw [Pay.pay1_apply]
  have hq : (⟨(i 1).val, idx2_lt1 i⟩ : Fin 64) = q := Fin.ext hi1
  rw [hq]
  exact mlp2At_congr x0 g0 x1 _ p ⟨(i 0).val, idx2_lt0 i⟩ q
    (fun l => e0 (ix2 p l) (ix2 ⟨(i 0).val, idx2_lt0 i⟩ l) hi0 rfl)

/-! ## From blocks to the array -/

/-- What point `t` writes back is block `t` of `result`. -/
theorem flushed1_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz']
  simp only [View.ld_unit_zero (S := S2000x32) hz', View.ld_unit_zero (S := S32x64) hz', View.ld_unit_zero (S := S1x64) hz']
  obtain ⟨-, -, -, -, -, -, e0, e1⟩ := idx_facts1 t
  funext j
  show k1_pay1 (F := Ideal) (iblk1 V c 0 t) (iblk1 V c 1 t) (iblk1 V c 2 t) j
    = result V c (((cfg1.win 3).blk t).view.emb j)
  unfold result
  exact entry1_of (V c main_v28) (V c main_arg6) (V c main_v29)
    (iblk1 V c 0 t) (iblk1 V c 1 t) (iblk1 V c 2 t) t.val
    (fun y k hk0 hk1 => hidden_block V c t y k hk0 hk1) (w3_block V c t) (b3_block V c t)
    j (((cfg1.win 3).blk t).view.emb j)
    (by show win1_3.index t (0 : Fin 2) * 2000 + 1 * (j 0).val = t.val * 2000 + (j 0).val; omega)
    (by show win1_3.index t (1 : Fin 2) * 64 + 1 * (j 1).val = (j 1).val; omega)

/-- An index of the result array is in point `t`'s block iff each coordinate is in the block's range on its axis. -/
theorem mem_blk1 (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v30).slice (win1_3.rect t)).set ↔ _
  rw [View.set_slice_whole, Rect.mem_set_unit]
  exact Iff.rfl

/-- Every index is in the block of the point its row's quotient by 2000 names. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto1 ⟨(i 0).val / 2000, by omega⟩
  have ht' : t.val = (i 0).val / 2000 := ht
  obtain ⟨-, -, -, -, -, -, e0, e1⟩ := idx_facts1 t
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- The result array after the region: the second perceptron of the entry contents, row by row. -/
theorem final1 (c : Dev nD) : (dat1 V c).arrAt 3 cfg1.N = result V c :=
  (dat1 V c).arrAt_eq_of_cover 3 (result V c) (fun t _ => flushed1_eq V c t) (cover1)

end Cert.KernelIdeal.Val

end
-- ==== Proof.RefRead.lean ====
/-
  The reference's two perceptron stages read at one entry.
  Its first perceptron is `relu (relu (h @ W1 + b1) @ W2 + b2)` over the whole node array `h` (the aggregated input,
  carried here as one unopened function of the arguments), its second `relu (g @ W3 + b3)` over the aggregated hidden
  array `g`. A host `dot_general` at the ideal instance is the sum of products over the contracted axis, each bias is
  broadcast along the rows, and `relu` is the maximum with a splat zero: entry `(r, q)` of each stage is the shared
  perceptron entry at row `r`.
-/
import proofs.«174522_j20538533610166_1_alg».proof.Proof.Gen.ReferenceIdeal.Read
import proofs.«174522_j20538533610166_1_alg».proof.Proof.Spec

noncomputable section

namespace Cert.ReferenceIdeal.Hand

open Cert.ReferenceIdeal Cert.ReferenceIdeal.Gen Cert.ReferenceIdeal.Read Idealize.ShloMosaic Idealize.ShloMosaic.ValueIdx Cert.Spec

/-! ## The stages' index maps at an entry written by its coordinates -/

theorem lidx15 (r : Fin 100000) (q : Fin 32) (l : Fin 64) : lidx_main_v15 (ix2 r q) l = ix2 r l :=
  funext fun a => Fin.ext (by match a with | ⟨0, _⟩ => rfl | ⟨1, _⟩ => rfl)
theorem ridx15 (r : Fin 100000) (q : Fin 32) (l : Fin 64) : ridx_main_v15 (ix2 r q) l = ix2 l q :=
  funext fun a => Fin.ext (by match a with | ⟨0, _⟩ => rfl | ⟨1, _⟩ => rfl)
theorem idx17 (r : Fin 100000) (q : Fin 32) : idx_main_v17 (ix2 r q) = ix2 (0 : Fin 1) q :=
  funext fun a => Fin.ext (by match a with | ⟨0, _⟩ => rfl | ⟨1, _⟩ => rfl)
theorem idx16 (u : Fin 1) (q : Fin 32) : idx_main_v16 (ix2 u q) = ix1 q :=
  funext fun a => Fin.ext (by match a with | ⟨0, _⟩ => rfl)
theorem lidx20 (r : Fin 100000) (q : Fin 32) (k : Fin 32) : lidx_main_v20 (ix2 r q) k = ix2 r k :=
  funext fun a => Fin.ext (by match a with | ⟨0, _⟩ => rfl | ⟨1, _⟩ => rfl)
theorem ridx20 (r : Fin 100000) (q : Fin 32) (k : Fin 32) : ridx_main_v20 (ix2 r q) k = ix2 k q :=
  funext fun a => Fin.ext (by match a with | ⟨0, _⟩ => rfl | ⟨1, _⟩ => rfl)
theorem idx22 (r : Fin 100000) (q : Fin 32) : idx_main_v22 (ix2 r q) = ix2 (0 : Fin 1) q :=
  funext fun a => Fin.ext (by match a with | ⟨0, _⟩ => rfl | ⟨1, _⟩ => rfl)
theorem idx21 (u : Fin 1) (q : Fin 32) : idx_main_v21 (ix2 u q) = ix1 q :=
  funext fun a => Fin.ext (by match a with | ⟨0, _⟩ => rfl)
theorem lidx36 (r : Fin 100000) (q : Fin 64) (k : Fin 32) : lidx_main_v36 (ix2 r q) k = ix2 r k :=
  funext fun a => Fin.ext (by match a with | ⟨0, _⟩ => rfl | ⟨1, _⟩ => rfl)
theorem ridx36 (r : Fin 100000) (q : Fin 64) (k : Fin 32) : ridx_main_v36 (ix2 r q) k = ix2 k q :=
  funext fun a => Fin.ext (by match a with | ⟨0, _⟩ => rfl | ⟨1, _⟩ => rfl)
theorem idx38 (r : Fin 100000) (q : Fin 64) : idx_main_v38 (ix2 r q) = ix2 (0 : Fin 1) q :=
  funext fun a => Fin.ext (by match a with | ⟨0, _⟩ => rfl | ⟨1, _⟩ => rfl)
theorem idx37 (u : Fin 1) (q : Fin 64) : idx_main_v37 (ix2 u q) = ix1 q :=
  funext fun a => Fin.ext (by match a with | ⟨0, _⟩ => rfl)

/-! ## The two stages -/

/-- Entry `(r, q)` of the reference's rectified first perceptron: the shared entry at row `r` of the aggregated input. -/
theorem v24_at (x0 : (⟨S100000x64, .f32⟩ : BufTy).Contents (Elt Ideal)) (x1 : (⟨S2x1600000, .i32⟩ : BufTy).Contents (Elt Ideal))
    (x2 : (⟨S64x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) (r : Fin 100000) (q : Fin 32) :
    val_main_v24 (F := Ideal) x0 x1 x2 x3 x4 x5 (ix2 r q)
      = mlp1At (val_main_v14 (F := Ideal) x0 x1) x2 (fun k => x3 (ix1 k)) x4 (fun k => x5 (ix1 k)) r q := by
  unfold mlp1At Cert.Spec.unit
  simp only [val_main_v24_apply, val_main_v23_apply, val_main_v20_apply, val_main_v22_apply, val_main_v21_apply,
    val_main_call1_v0_apply, val_main_call1_cst_apply, lidx20, ridx20, idx22, idx21,
    val_main_v19_apply, val_main_v18_apply, val_main_v15_apply, val_main_v17_apply, val_main_v16_apply,
    val_main_call0_v0_apply, val_main_call0_cst_apply, lidx15, ridx15, idx17, idx16,
    Ideal.maximumf_def, Ideal.addf_def, Ideal.ofBits_def]

/-- Entry `(r, q)` of the reference's result: the shared second-perceptron entry at row `r` of the aggregated hidden array. -/
theorem v40_at (x0 : (⟨S100000x64, .f32⟩ : BufTy).Contents (Elt Ideal)) (x1 : (⟨S2x1600000, .i32⟩ : BufTy).Contents (Elt Ideal))
    (x2 : (⟨S64x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x64, .f32⟩ : BufTy).Contents (Elt Ideal)) (x7 : (⟨S64, .f32⟩ : BufTy).Contents (Elt Ideal)) (r : Fin 100000) (q : Fin 64) :
    val_main_v40 (F := Ideal) x0 x1 x2 x3 x4 x5 x6 x7 (ix2 r q)
      = mlp2At (val_main_v35 (F := Ideal) x0 x1 x2 x3 x4 x5) x6 (fun k => x7 (ix1 k)) r q := by
  unfold mlp2At Cert.Spec.unit
  simp only [val_main_v40_apply, val_main_v39_apply, val_main_v36_apply, val_main_v38_apply, val_main_v37_apply,
    val_main_call2_v0_apply, val_main_call2_cst_apply, lidx36, ridx36, idx38, idx37,
    Ideal.maximumf_def, Ideal.addf_def, Ideal.ofBits_def]

end Cert.ReferenceIdeal.Hand

end
-- ==== Proof.Bridge.lean ====
/-
  The kernel program's result, as the reference's last stage of the same arguments.
  The kernel program is: a host stretch (the first neighbourhood sum, the bias reshapes), the first region, a second
  host stretch (the second neighbourhood sum over what the first region wrote, one bias reshape), the second region.
  Read back in that order: the first region is entered with the aggregated node array — the very term the reference
  computes, since both programs spell the gather and the scatter-add with the same dimension numbers — and leaves the
  first perceptron of it, which is the reference's rectified hidden stage entry by entry; the second stretch forms
  the same neighbourhood sum of that array as the reference does; and the second region leaves the second perceptron
  of it, the reference's result entry by entry. A bias row `[1, n]` reshaped from `[n]` reads at `(0, k)` what the
  reference's broadcast of `[n]` reads at `k`.
-/
import proofs.«174522_j20538533610166_1_alg».proof.Proof.Gen.KernelIdeal.Frame
import proofs.«174522_j20538533610166_1_alg».proof.Proof.Region0
import proofs.«174522_j20538533610166_1_alg».proof.Proof.Region1
import proofs.«174522_j20538533610166_1_alg».proof.Proof.RefRead
import Idealize.ShloMosaic.Lib.StableHlo.Run
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Cert.Spec Idealize.ShloMosaic.StableHlo

variable (m : (ℓ : Loc nD τ sig) → Buf (Elt Ideal) ℓ) (ρ : Dev nD → PrngReg)

/-! ## The first host stretch, read at the buffers the first region stages -/

theorem entry_nodes (c : Dev nD) :
    V1 m ρ c main_v14 = Cert.ReferenceIdeal.Read.val_main_v14 (F := Ideal) (m ((c : Thread nD τ).loc main_arg0)) (m ((c : Thread nD τ).loc main_arg1)) := by
  show StableHlo.after hostOps0 (W0 m ρ c) (Proc.devRef .tc main_v14) = _
  after_results
  rfl

theorem entry_w1 (c : Dev nD) : V1 m ρ c main_arg2 = m ((c : Thread nD τ).loc main_arg2) := by
  show StableHlo.after hostOps0 (W0 m ρ c) (Proc.devRef .tc main_arg2) = _
  after_results
theorem entry_w2 (c : Dev nD) : V1 m ρ c main_arg4 = m ((c : Thread nD τ).loc main_arg4) := by
  show StableHlo.after hostOps0 (W0 m ρ c) (Proc.devRef .tc main_arg4) = _
  after_results
/-- The first bias row, reshaped to `[1, 32]`, at `(0, k)`. -/
theorem entry_b1 (c : Dev nD) (k : Fin 32) :
    (V1 m ρ c main_v15 : S1x32.Idx → EReal) (ix2 (0 : Fin 1) k) = (m ((c : Thread nD τ).loc main_arg3) : S32.Idx → EReal) (ix1 k) := by
  have e : V1 m ρ c main_v15 = shapeCast S1x32 (m ((c : Thread nD τ).loc main_arg3) : S32.Idx → EReal) shapeCasts_S32_S1x32 := by
    show StableHlo.after hostOps0 (W0 m ρ c) (Proc.devRef .tc main_v15) = _
    after_results
    rfl
  rw [e]
  exact shapeCast_a_1a_apply _ shapeCasts_S32_S1x32 (0 : Fin 1) k
/-- The second bias row, reshaped to `[1, 32]`, at `(0, k)`. -/
theorem entry_b2 (c : Dev nD) (k : Fin 32) :
    (V1 m ρ c main_v16 : S1x32.Idx → EReal) (ix2 (0 : Fin 1) k) = (m ((c : Thread nD τ).loc main_arg5) : S32.Idx → EReal) (ix1 k) := by
  have e : V1 m ρ c main_v16 = shapeCast S1x32 (m ((c : Thread nD τ).loc main_arg5) : S32.Idx → EReal) shapeCasts_S32_S1x32 := by
    show StableHlo.after hostOps0 (W0 m ρ c) (Proc.devRef .tc main_v16) = _
    after_results
    rfl
  rw [e]
  exact shapeCast_a_1a_apply _ shapeCasts_S32_S1x32 (0 : Fin 1) k

/-! ## The first region leaves the reference's rectified hidden stage -/

theorem hidden_eq (c : Dev nD) :
    hidden (V1 m ρ) c = Cert.ReferenceIdeal.Read.val_main_v24 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  funext i
  obtain ⟨r, q, rfl⟩ : ∃ (r : Fin 100000) (q : Fin 32), i = ix2 r q := ⟨i 0, i 1, eq_ix2 i⟩
  rw [Cert.ReferenceIdeal.Hand.v24_at]
  unfold hidden
  rw [entry_nodes m ρ c, entry_w1 m ρ c, entry_w2 m ρ c]
  simp only [entry_b1 m ρ c, entry_b2 m ρ c]

/-- The hidden array at the first region's exit. -/
theorem exit_hidden (c : Dev nD) :
    W2 m ρ c (Proc.devRef .tc main_v17) = Cert.ReferenceIdeal.Read.val_main_v24 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) :=
  ((W2_arr m ρ c 5).trans (final0 (V1 m ρ) c)).trans (hidden_eq m ρ c)

/-! ## The buffers the second stretch reads that the first region did not write -/

theorem exit_src (c : Dev nD) :
    W2 m ρ c (Proc.devRef .tc main_v1) = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results
    rfl)
theorem exit_dst (c : Dev nD) :
    W2 m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results
    rfl)
theorem exit_w3 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem exit_b3 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-! ## The second host stretch, read at the buffers the second region stages -/

theorem entry_agg_hidden (c : Dev nD) :
    V3 m ρ c main_v28 = Cert.ReferenceIdeal.Read.val_main_v35 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v28) = _
  after_results_simp
  rw [exit_hidden m ρ c, exit_src m ρ c, exit_dst m ρ c]
  rfl
theorem entry_w3 (c : Dev nD) : V3 m ρ c main_arg6 = m ((c : Thread nD τ).loc main_arg6) := by
  show StableHlo.after hostOps1 (W2 m ρ c) (Proc.devRef .tc main_arg6) = _
  after_results
  exact exit_w3 m ρ c
/-- The third bias row, reshaped to `[1, 64]`, at `(0, k)`. -/
theorem entry_b3 (c : Dev nD) (k : Fin 64) :
    (V3 m ρ c main_v29 : S1x64.Idx → EReal) (ix2 (0 : Fin 1) k) = (m ((c : Thread nD τ).loc main_arg7) : S64.Idx → EReal) (ix1 k) := by
  have e : V3 m ρ c main_v29 = shapeCast S1x64 (m ((c : Thread nD τ).loc main_arg7) : S64.Idx → EReal) shapeCasts_S64_S1x64 := by
    show StableHlo.after hostOps1 (W2 m ρ c) (Proc.devRef .tc main_v29) = _
    after_results
    rw [exit_b3 m ρ c]
    rfl
  rw [e]
  exact shapeCast_a_1a_apply _ shapeCasts_S64_S1x64 (0 : Fin 1) k

/-! ## The second region leaves the reference's result -/

theorem result_eq (c : Dev nD) :
    result (V3 m ρ) c = Cert.ReferenceIdeal.Read.val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) := by
  funext i
  obtain ⟨r, q, rfl⟩ : ∃ (r : Fin 100000) (q : Fin 64), i = ix2 r q := ⟨i 0, i 1, eq_ix2 i⟩
  rw [Cert.ReferenceIdeal.Hand.v40_at]
  unfold result
  rw [entry_agg_hidden m ρ c, entry_w3 m ρ c]
  simp only [entry_b3 m ρ c]

/-- The result buffer when @main returns: the reference's last stage of the kernel program's own arguments. -/
theorem exit_result (c : Dev nD) :
    W4 m ρ c (Proc.devRef .tc main_v30) = Cert.ReferenceIdeal.Read.val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) :=
  ((W4_arr m ρ c 3).trans (final1 (V3 m ρ) c)).trans (result_eq m ρ c)

end Cert.KernelIdeal.Val

end
-- ==== Proof.lean ====
/-
  A two-layer graph-isomorphism network over 100000 nodes and 1600000 edges, its two perceptrons as Pallas kernels
  tiled over the nodes (2000 rows a block, bf16 operands on the matrix unit) and its two neighbourhood sums on the
  host, against the same network in plain jnp.
  Over the extended reals the two programs are one function of the arguments. The neighbourhood sums are the same
  host operations in both (a gather of source rows, a scatter-add into target rows, the input added), so they are
  carried whole and never opened. Narrowing to bf16 is the identity, a matrix-unit product into a zero accumulator and
  a host `dot_general` are the same sum of products over the contracted axis, a bias reshaped to a row and broadcast
  down a block reads what the reference's broadcast reads, and both rectify by the maximum with zero: each perceptron
  entry is a function of its own row, so the kernel's row blocks are the blocks of the reference's whole-array stages
  (Proof/Region0.lean, Proof/Region1.lean, Proof/Bridge.lean). No law beyond commutativity and associativity of the
  sum is used, so the finiteness precondition is never opened.
  The word-level and the idealized kernel program's frames are the generated ones; the reference's frame is its
  generated run with the result dropped; the ideal pass rewrote nothing, so `preserves` is trivial.
-/
import proofs.«174522_j20538533610166_1_alg».proof.Defs
import proofs.«174522_j20538533610166_1_alg».proof.Proof.Gen.Kernel
import proofs.«174522_j20538533610166_1_alg».proof.Proof.Gen.Kernel.Frame
import proofs.«174522_j20538533610166_1_alg».proof.Proof.Gen.KernelIdeal
import proofs.«174522_j20538533610166_1_alg».proof.Proof.Gen.KernelIdeal.Frame
import proofs.«174522_j20538533610166_1_alg».proof.Proof.Gen.ReferenceIdeal
import proofs.«174522_j20538533610166_1_alg».proof.Proof.Gen.ReferenceIdeal.Run
import proofs.«174522_j20538533610166_1_alg».proof.Proof.Gen.ReferenceIdeal.Read
import proofs.«174522_j20538533610166_1_alg».proof.Proof.Gen.Pre_finite_inputs
import proofs.«174522_j20538533610166_1_alg».proof.Proof.KernelRun
import proofs.«174522_j20538533610166_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result buffer at the reference's last stage of the (agreeing) arguments. -/
theorem algebraic : Cert.algebraic_KernelIdeal_ReferenceIdeal := by
  intro m ρ m' ρ' _ hagree
  refine ⟨fun c => Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Val.exit_result m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v40_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
